-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S8192x128 : Shape := ⟨2, ![8192, 128]⟩
abbrev S2048x128 : Shape := ⟨2, ![2048, 128]⟩
abbrev S1024x128 : Shape := ⟨2, ![1024, 128]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .bf16⟩
  | .hbm, ⟨4, _⟩ => ⟨S8192x128, .bf16⟩
  | .hbm, ⟨5, _⟩ => ⟨S8192x128, .bf16⟩
  | .hbm, ⟨6, _⟩ => ⟨S8192x128, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x128 : S2048x1.Broadcasts S2048x128
  dot_S2048x128_S1024x128_S2048x1024_1_1_0_0_n_n_wf : DotDims.WF S2048x128 S1024x128 S2048x1024 [1] [1] [0] [0] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .bf16 = 32 ∨ (Rect.block (s := S8192x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x8192, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S8192x128_S8192x8192_1_1_0_0_n_n_wf : DotDims.WF S8192x128 S8192x128 S8192x8192 [1] [1] [0] [0] [] []
  dot_S8192x8192_S8192x128_S8192x128_1_0_0_1_n_n_wf : DotDims.WF S8192x8192 S8192x128 S8192x128 [1] [0] [0] [1] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.AttnSpec.lean ====
/-
  Softmax attention over [8192,128] arrays of extended reals whose entries are all real, as ONE function of
  the three arrays: with s(q,k) = Σ_d Q(q,d)·K(k,d) and w(q,k) = exp s(q,k),
      attn(q,d) = (Σ_k w(q,k)·V(k,d)) / (Σ_k w(q,k)).
  The sums over the keys are kept as sums over an initial segment {k < n} of the naturals (entries outside
  the arrays read as 0), so that a key tile of 1024 keys is added by splitting a range, and the whole sum
  is the segment n = 8192. Both the streaming (running maximum, rescaled partial sums) and the two-pass
  (subtract the row maximum, normalise, then multiply) evaluations reduce to this quotient, because the
  common factor exp(−M) cancels whatever real M is subtracted.
-/
import Idealize.ShloMosaic.PureOps.Ideal
import Idealize.ShloMosaic.Lib.ValueIdx
import Mathlib.Analysis.SpecialFunctions.Exp

noncomputable section

namespace Cert.Attn

open Idealize.ShloMosaic Idealize.ShloMosaic.ValueIdx

/-- An [8192,128] array of extended reals. -/
abbrev Arr : Type := (⟨2, ![8192, 128]⟩ : Shape).Idx → EReal

/-- Every entry is a real number (neither infinity). -/
def IsReal (A : Arr) : Prop := ∀ i, (((A i).toReal : ℝ) : EReal) = A i

/-- Entry (q,d) as a real; 0 outside the array. -/
def rd (A : Arr) (q d : ℕ) : ℝ :=
  if h : q < 8192 ∧ d < 128 then (A (ix2 ⟨q, h.1⟩ ⟨d, h.2⟩)).toReal else 0

theorem rd_eq (A : Arr) (hA : IsReal A) (a : Fin 8192) (b : Fin 128) :
    A (ix2 a b) = ((rd A a.val b.val : ℝ) : EReal) := by
  unfold rd
  rw [dif_pos ⟨a.isLt, b.isLt⟩]
  exact (hA _).symm

/-- The score of query row q against key row k: the dot product over the 128 features. -/
def score (Q K : Arr) (q k : ℕ) : ℝ := ∑ d ∈ Finset.range 128, rd Q q d * rd K k d

/-- The unnormalised weight exp(score). -/
def wt (Q K : Arr) (q k : ℕ) : ℝ := Real.exp (score Q K q k)

/-- The sum of the weights of the first n keys. -/
def den (Q K : Arr) (q n : ℕ) : ℝ := ∑ k ∈ Finset.range n, wt Q K q k

/-- The weighted sum of column d of V over the first n keys. -/
def num (Q K V : Arr) (q d n : ℕ) : ℝ := ∑ k ∈ Finset.range n, wt Q K q k * rd V k d

/-- Attention: the weighted mean of V's rows. -/
def attn (Q K V : Arr) : Arr :=
  fun i => ((num Q K V (i 0).val (i 1).val 8192 / den Q K (i 0).val 8192 : ℝ) : EReal)

theorem score_eq (Q K : Arr) (q k : ℕ) :
    score Q K q k = ∑ d : Fin 128, rd Q q d.val * rd K k d.val := by
  unfold score; exact Finset.sum_range _

theorem den_zero (Q K : Arr) (q : ℕ) : den Q K q 0 = 0 := by
  unfold den; exact Finset.sum_range_zero _

theorem num_zero (Q K V : Arr) (q d : ℕ) : num Q K V q d 0 = 0 := by
  unfold num; exact Finset.sum_range_zero _

/-- A tile of 1024 keys added to the first n. -/
theorem den_tile (Q K : Arr) (q n : ℕ) :
    den Q K q (n + 1024) = den Q K q n + ∑ c : Fin 1024, wt Q K q (n + c.val) := by
  unfold den
  rw [Finset.sum_range_add]
  exact congrArg (_ + ·) (Finset.sum_range _)

theorem num_tile (Q K V : Arr) (q d n : ℕ) :
    num Q K V q d (n + 1024) = num Q K V q d n + ∑ c : Fin 1024, wt Q K q (n + c.val) * rd V (n + c.val) d := by
  unfold num
  rw [Finset.sum_range_add]
  exact congrArg (_ + ·) (Finset.sum_range _)

theorem den_all (Q K : Arr) (q : ℕ) : den Q K q 8192 = ∑ k : Fin 8192, wt Q K q k.val := by
  unfold den; exact Finset.sum_range _

theorem num_all (Q K V : Arr) (q d : ℕ) :
    num Q K V q d 8192 = ∑ k : Fin 8192, wt Q K q k.val * rd V k.val d := by
  unfold num; exact Finset.sum_range _

/-- A non-empty sum of exponentials is positive. -/
theorem den_pos (Q K : Arr) (q n : ℕ) (hn : 0 < n) : 0 < den Q K q n := by
  unfold den
  exact Finset.sum_pos (fun k _ => Real.exp_pos _) (Finset.nonempty_range_iff.mpr (Nat.pos_iff_ne_zero.mp hn))

end Cert.Attn

end
-- ==== Proof.AttnFinite.lean ====
/-
  The precondition says of each of the three argument arrays that every entry x satisfies |x| < +∞ (the
  conjunction of three all-reductions of that comparison). On the extended reals |x| = max x (−x) < ⊤ holds
  exactly when x is neither ⊤ nor ⊥, i.e. when x is (the coercion of) a real number.
-/
import proofs.«402719_j29540785062259_3_alg».proof.Pre_finite_inputs
import proofs.«402719_j29540785062259_3_alg».proof.Proof.AttnSpec
import Idealize.ShloMosaic.Lib.ReduceAll

noncomputable section

namespace Cert.Attn

open Idealize.ShloMosaic

/-- The result shape of a reduction over every axis has exactly one index. -/
instance finite_scalar_idx_subsingleton : Subsingleton Cert.Pre_finite_inputs.S_.Idx := ⟨fun a b => funext fun d => d.elim0⟩

/-- The single-precision word 0x7F800000 (all-ones exponent, zero fraction, sign clear) denotes +∞. -/
theorem inf_word : Ideal.ofBits .f32 0x7F800000#32 = (⊤ : EReal) := by
  simp [Ideal.ofBits, Ideal.ieee]

/-- On the extended reals, max x (−x) < ⊤ excludes x = ⊤ (then max = ⊤) and x = ⊥ (then −x = ⊤),
    so x is the coercion of its real part. -/
theorem real_of_abs_lt_top (x : EReal) (h : max x (-x) < ⊤) : ((x.toReal : ℝ) : EReal) = x := by
  have h1 : x ≠ ⊤ := by
    rintro rfl
    simp at h
  have h2 : x ≠ ⊥ := by
    rintro rfl
    simp at h
  exact EReal.coe_toReal h1 h2

/-- One all-reduction of the comparison |x| < +∞ being 1 makes every entry of the array real. -/
theorem real_of_all [Cert.Pre_finite_inputs.Facts] (a : Arr) (init : IVec Cert.Pre_finite_inputs.S_ 1)
    (e : Host.reduce IntOp.andi
          (cmpf (F := Ideal) .olt (Host.absf a)
            (broadcastInDim Cert.Pre_finite_inputs.S8192x128 ![] Cert.Pre_finite_inputs.Facts.bcast_S_S8192x128
              (constant Cert.Pre_finite_inputs.S_ .f32 0x7F800000#32)))
          init Cert.Pre_finite_inputs.Facts.reducesTo_S8192x128_S_d0_1 Cert.Pre_finite_inputs.Facts.h_S_ ValueIdx.ix0
        = 1#1) : IsReal a := by
  intro i
  have hi := Host.reduce_andi_all _ _ _ _ _ e i
  have hc : Ideal.cmp .olt (max (a i) (-(a i))) (Ideal.ofBits .f32 0x7F800000#32) = 1#1 := hi
  rw [inf_word] at hc
  apply real_of_abs_lt_top
  by_contra hn
  simp [Ideal.cmp, hn] at hc

/-- Under the precondition every entry of the three arrays is real. -/
theorem real_of_pre [Cert.Pre_finite_inputs.Facts] (a0 a1 a2 : Arr)
    (h : Cert.Pre_finite_inputs.fn (F := Ideal) a0 a1 a2 = fun _ => 1#1) :
    IsReal a0 ∧ IsReal a1 ∧ IsReal a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all a0 _ h0', real_of_all a1 _ h1, real_of_all a2 _ h2⟩

end Cert.Attn

end
-- ==== Proof.LibStreamSoftmax.lean ====
/-
  The scalar laws behind streaming softmax, on the extended reals with real data. A row's state after
  some key tiles is (μ, exp(−μ)·Z, exp(−μ)·N) for SOME real μ (the running maximum; its being a maximum is
  never used), Z the sum of exp(score) and N the weighted sum so far. A new tile with maximum-so-far μ'
  rescales the old sums by exp(μ − μ') and adds exp(score − μ'): both become exp(−μ')·(old + tile's).
  At the first tile the old maximum is −∞, the rescaling factor exp(−∞ − μ') is 0 and the old sums are 0.
  The final quotient cancels exp(−μ). The two-pass form Σ_k (exp(s_k − M)/Σ_j exp(s_j − M))·v_k cancels
  exp(−M) the same way.
-/
import Idealize.ShloMosaic.PureOps.Ideal
import Mathlib.Analysis.SpecialFunctions.Exp

noncomputable section

namespace Cert.Attn

open Idealize.ShloMosaic

variable {ι : Type} [Fintype ι]

/-- The coercion of a finite real sum is the sum of the coercions. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The f32 word of −∞ denotes ⊥. -/
theorem ofBits_neg_inf : Ideal.ofBits .f32 0xFF800000#32 = (⊥ : EReal) := by
  simp [Ideal.ofBits, Ideal.ieee]

/-- A dot product of real data is real. -/
theorem dot_coe (a b : ι → ℝ) : ∑ d, (a d : EReal) * (b d : EReal) = ((∑ d, a d * b d : ℝ) : EReal) := by
  rw [coe_sum]
  exact Finset.sum_congr rfl (fun d _ => (EReal.coe_mul _ _).symm)

/-- The maximum of finitely many (at least one) reals, folded from −∞, is real. -/
theorem foldmax_real [Nonempty ι] (σ : ι → ℝ) :
    ∃ μ : ℝ, (Finset.univ : Finset ι).fold max (⊥ : EReal) (fun k => (σ k : EReal)) = (μ : EReal) := by
  classical
  have key : ∀ s : Finset ι,
      (s = ∅ ∧ s.fold max (⊥ : EReal) (fun k => (σ k : EReal)) = ⊥)
        ∨ ∃ μ : ℝ, s.fold max (⊥ : EReal) (fun k => (σ k : EReal)) = (μ : EReal) := by
    intro s
    refine Finset.induction_on s ?_ ?_
    · exact Or.inl ⟨rfl, Finset.fold_empty⟩
    · intro a s ha ih
      refine Or.inr ?_
      rw [Finset.fold_insert ha]
      rcases ih with ⟨_, h⟩ | ⟨μ, h⟩
      · exact ⟨σ a, by rw [h, max_bot_right]⟩
      · exact ⟨max (σ a) μ, by rw [h]; exact (EReal.coe_strictMono.monotone.map_max).symm⟩
  rcases key Finset.univ with ⟨h, _⟩ | h
  · exact absurd h (Finset.univ_nonempty.ne_empty)
  · exact h

/-- … and so is its maximum with a real, or with −∞. -/
theorem max_real [Nonempty ι] (μ : ℝ) (σ : ι → ℝ) :
    ∃ μ' : ℝ, max (μ : EReal) ((Finset.univ : Finset ι).fold max (⊥ : EReal) (fun k => (σ k : EReal))) = (μ' : EReal) := by
  obtain ⟨m, h⟩ := foldmax_real σ
  exact ⟨max μ m, by rw [h]; exact (EReal.coe_strictMono.monotone.map_max).symm⟩

theorem max_real_first [Nonempty ι] (σ : ι → ℝ) :
    ∃ μ' : ℝ, max (⊥ : EReal) ((Finset.univ : Finset ι).fold max (⊥ : EReal) (fun k => (σ k : EReal))) = (μ' : EReal) := by
  obtain ⟨m, h⟩ := foldmax_real σ
  exact ⟨m, by rw [h, max_bot_left]⟩

/-- First tile: the factor exp(−∞ − μ') is 0, and it multiplies 0. -/
theorem rescale_first (μ' : ℝ) :
    Ideal.exp ((⊥ : EReal) - (μ' : EReal)) * (0 : EReal) = ((Real.exp (-μ') * 0 : ℝ) : EReal) := by
  rw [mul_zero, mul_zero, EReal.coe_zero]

/-- Later tiles: exp(μ − μ')·(exp(−μ)·Z) = exp(−μ')·Z. -/
theorem rescale (μ μ' Z : ℝ) :
    Ideal.exp ((μ : EReal) - (μ' : EReal)) * ((Real.exp (-μ) * Z : ℝ) : EReal) = ((Real.exp (-μ') * Z : ℝ) : EReal) := by
  rw [← EReal.coe_sub, Ideal.exp_coe, ← EReal.coe_mul, ← mul_assoc, ← Real.exp_add]
  congr 3
  ring

/-- A tile's contribution to the weight sum. -/
theorem tile_den (μ' : ℝ) (σ : ι → ℝ) :
    ∑ c, Ideal.exp ((σ c : EReal) - (μ' : EReal)) = ((Real.exp (-μ') * ∑ c, Real.exp (σ c) : ℝ) : EReal) := by
  rw [Finset.mul_sum, coe_sum]
  refine Finset.sum_congr rfl (fun c _ => ?_)
  rw [← EReal.coe_sub, Ideal.exp_coe, ← Real.exp_add]
  congr 2
  ring

/-- A tile's contribution to the weighted sum of a column. -/
theorem tile_num (μ' : ℝ) (σ v : ι → ℝ) :
    ∑ c, Ideal.exp ((σ c : EReal) - (μ' : EReal)) * (v c : EReal)
      = ((Real.exp (-μ') * ∑ c, Real.exp (σ c) * v c : ℝ) : EReal) := by
  rw [Finset.mul_sum, coe_sum]
  refine Finset.sum_congr rfl (fun c _ => ?_)
  rw [← EReal.coe_sub, Ideal.exp_coe, ← EReal.coe_mul, ← mul_assoc, ← Real.exp_add]
  congr 3
  ring

/-- Rescaled old sum plus the tile's. -/
theorem carry_add (μ' Z T : ℝ) :
    ((Real.exp (-μ') * Z : ℝ) : EReal) + ((Real.exp (-μ') * T : ℝ) : EReal) = ((Real.exp (-μ') * (Z + T) : ℝ) : EReal) := by
  rw [← EReal.coe_add, mul_add]

/-- The final quotient cancels exp(−μ). -/
theorem final_div (μ N Z : ℝ) (hZ : 0 < Z) :
    Ideal.div ((Real.exp (-μ) * N : ℝ) : EReal) ((Real.exp (-μ) * Z : ℝ) : EReal) = ((N / Z : ℝ) : EReal) := by
  have he : Real.exp (-μ) ≠ 0 := (Real.exp_pos _).ne'
  have hne : Real.exp (-μ) * Z ≠ 0 := mul_ne_zero he hZ.ne'
  rw [Ideal.div_coe hne, ← EReal.coe_mul]
  congr 1
  field_simp

/-- The two-pass form of a row: normalise the weights exp(s_k − M) by their sum (added to the initial 0),
    then take the weighted sum of a column. -/
theorem ref_row (M : ℝ) (σ v : ι → ℝ) (hpos : 0 < ∑ j, Real.exp (σ j)) :
    ∑ k, Ideal.div (Ideal.exp ((σ k : EReal) - (M : EReal))) ((0 : EReal) + ∑ j, Ideal.exp ((σ j : EReal) - (M : EReal))) * (v k : EReal)
      = (((∑ k, Real.exp (σ k) * v k) / (∑ k, Real.exp (σ k)) : ℝ) : EReal) := by
  have he : Real.exp (-M) ≠ 0 := (Real.exp_pos _).ne'
  have hne : Real.exp (-M) * ∑ j, Real.exp (σ j) ≠ 0 := mul_ne_zero he hpos.ne'
  rw [zero_add, tile_den, Finset.sum_div, coe_sum]
  refine Finset.sum_congr rfl (fun k _ => ?_)
  rw [Ideal.div_coe hne, ← EReal.coe_sub, Ideal.exp_coe, ← EReal.coe_mul, ← EReal.coe_mul, sub_eq_add_neg,
    Real.exp_add]
  congr 1
  field_simp

end Cert.Attn

end
-- ==== Proof.AttnRef.lean ====
/-
  The reference computes, row by row, M = max_k s(q,k), e(q,k) = exp(s(q,k) − M), L = 0 + Σ_k e(q,k),
  and the result Σ_k (e(q,k)/L)·V(k,d). With real data s is real, M is a real number (a maximum of
  finitely many reals), and the result is the attention quotient (Σ_k exp s·V)/(Σ_k exp s): the factor
  exp(−M) cancels.
-/
import proofs.«402719_j29540785062259_3_alg».proof.Proof.Gen.ReferenceIdeal.Read
import proofs.«402719_j29540785062259_3_alg».proof.Proof.AttnSpec
import proofs.«402719_j29540785062259_3_alg».proof.Proof.LibStreamSoftmax
import Idealize.ShloMosaic.Lib.ValueIdx
import Idealize.ShloMosaic.PureOps.Ideal.Laws

noncomputable section

namespace Cert.Attn

open Idealize.ShloMosaic Idealize.ShloMosaic.ValueIdx Cert.ReferenceIdeal Cert.ReferenceIdeal.Gen

/-- The reference's score matrix at (q,k) is the real score. -/
theorem ref_score (Q K : Arr) (hQ : IsReal Q) (hK : IsReal K) (p : S8192x8192.Idx) :
    Cert.ReferenceIdeal.Read.val_main_v0 (F := Ideal) Q K p = ((score Q K (p 0).val (p 1).val : ℝ) : EReal) := by
  rw [Cert.ReferenceIdeal.Read.val_main_v0_apply, score_eq, ← dot_coe]
  refine Finset.sum_congr rfl (fun k _ => ?_)
  have e1 : Cert.ReferenceIdeal.Read.lidx_main_v0 p k = ix2 (⟨(p 0).val, (p 0).isLt⟩ : Fin 8192) k :=
    funext fun a => Fin.ext (by match a with | ⟨0, _⟩ => rfl | ⟨1, _⟩ => rfl)
  have e2 : Cert.ReferenceIdeal.Read.ridx_main_v0 p k = ix2 (⟨(p 1).val, (p 1).isLt⟩ : Fin 8192) k :=
    funext fun a => Fin.ext (by match a with | ⟨0, _⟩ => rfl | ⟨1, _⟩ => rfl)
  rw [e1, e2, rd_eq Q hQ, rd_eq K hK]

/-- The row maximum the reference subtracts is some real number. -/
theorem ref_max (Q K : Arr) (hQ : IsReal Q) (hK : IsReal K) (j : S8192.Idx) :
    ∃ M : ℝ, Cert.ReferenceIdeal.Read.val_main_v3 (F := Ideal) Q K j = (M : EReal) := by
  have hred : S8192x8192.Reduces [1] S8192 := by decide
  rw [Cert.ReferenceIdeal.Read.val_main_v3_apply, Cert.ReferenceIdeal.Read.val_main_v2_apply,
    Cert.ReferenceIdeal.Read.val_main_cst_0_apply, Ideal.maximumf_def]
  unfold Cert.ReferenceIdeal.Read.val_main_v1
  rw [Host.reduce_eq_fold_single FloatOps.maximumf _ _ reducesTo_S8192x8192_S8192_d1 hred h_S_,
    Cert.ReferenceIdeal.Read.val_main_cst_apply]
  have hf : (Cert.ReferenceIdeal.Read.val_main_v0 (F := Ideal) Q K ∘ hred.lift j)
      = fun k : Fin 8192 => ((score Q K (j 0).val k.val : ℝ) : EReal) :=
    funext fun k => by
      show Cert.ReferenceIdeal.Read.val_main_v0 (F := Ideal) Q K (hred.lift j k) = _
      rw [ref_score Q K hQ hK]
      rfl
  rw [hf]
  show ∃ M : ℝ, max (Ideal.ofBits .f32 0xFF800000#32)
    ((Finset.univ : Finset (Fin 8192)).fold max (Ideal.ofBits .f32 0xFF800000#32) _) = (M : EReal)
  rw [ofBits_neg_inf]
  exact max_real_first (fun k : Fin 8192 => score Q K (j 0).val k.val)

/-- The reference's result, as a function of real argument arrays, is attention. -/
theorem ref_is_attn (Q K V : Arr) (hQ : IsReal Q) (hK : IsReal K) (hV : IsReal V) :
    Cert.ReferenceIdeal.Read.val_main_v12 (F := Ideal) Q K V = attn Q K V := by
  funext i
  obtain ⟨M, hM⟩ := ref_max Q K hQ hK (ix1 (⟨(i 0).val, (i 0).isLt⟩ : Fin 8192))
  -- every entry of row (i 0) of the exponentials
  have hexp : ∀ p : S8192x8192.Idx, (p 0).val = (i 0).val →
      Cert.ReferenceIdeal.Read.val_main_v7 (F := Ideal) Q K p
        = Ideal.exp (((score Q K (i 0).val (p 1).val : ℝ) : EReal) - (M : EReal)) := by
    intro p hp
    have ej : Cert.ReferenceIdeal.Read.idx_main_v4 (Cert.ReferenceIdeal.Read.idx_main_v5 p)
        = ix1 (⟨(i 0).val, (i 0).isLt⟩ : Fin 8192) :=
      funext fun a => Fin.ext (by match a with | ⟨0, _⟩ => exact hp)
    rw [Cert.ReferenceIdeal.Read.val_main_v7_apply, Cert.ReferenceIdeal.Read.val_main_v6_apply,
      Cert.ReferenceIdeal.Read.val_main_v5_apply, Cert.ReferenceIdeal.Read.val_main_v4_apply,
      Ideal.hostUnary_exp_def, Ideal.subf_def, ref_score Q K hQ hK, hp, ej, hM]
  -- the row's sum of exponentials
  have hsum : Cert.ReferenceIdeal.Read.val_main_v8 (F := Ideal) Q K (ix1 (⟨(i 0).val, (i 0).isLt⟩ : Fin 8192))
      = (0 : EReal) + ∑ k : Fin 8192, Ideal.exp (((score Q K (i 0).val k.val : ℝ) : EReal) - (M : EReal)) := by
    rw [Cert.ReferenceIdeal.Read.val_main_v8_apply, Cert.ReferenceIdeal.Read.val_main_cst_1_apply]
    show Ideal.ofBits .f32 0x00000000#32 + _ = _
    rw [Ideal.ofBits_zero_f32]
    refine congrArg (_ + ·) (Finset.sum_congr rfl fun k _ => ?_)
    rw [hexp _ rfl]
  have hpos : 0 < ∑ j : Fin 8192, Real.exp (score Q K (i 0).val j.val) := by
    have h := den_pos Q K (i 0).val 8192 (by norm_num)
    rw [den_all] at h
    exact h
  rw [Cert.ReferenceIdeal.Read.val_main_v12_apply]
  have hterm : ∀ k : Fin 8192,
      Cert.ReferenceIdeal.Read.val_main_v11 (F := Ideal) Q K (Cert.ReferenceIdeal.Read.lidx_main_v12 i k)
          * V (Cert.ReferenceIdeal.Read.ridx_main_v12 i k)
        = Ideal.div (Ideal.exp (((score Q K (i 0).val k.val : ℝ) : EReal) - (M : EReal)))
            ((0 : EReal) + ∑ j : Fin 8192, Ideal.exp (((score Q K (i 0).val j.val : ℝ) : EReal) - (M : EReal)))
          * ((rd V k.val (i 1).val : ℝ) : EReal) := by
    intro k
    have ej : Cert.ReferenceIdeal.Read.idx_main_v9
        (Cert.ReferenceIdeal.Read.idx_main_v10 (Cert.ReferenceIdeal.Read.lidx_main_v12 i k))
        = ix1 (⟨(i 0).val, (i 0).isLt⟩ : Fin 8192) :=
      funext fun a => Fin.ext (by match a with | ⟨0, _⟩ => rfl)
    have ev : Cert.ReferenceIdeal.Read.ridx_main_v12 i k = ix2 k (⟨(i 1).val, (i 1).isLt⟩ : Fin 128) :=
      funext fun a => Fin.ext (by match a with | ⟨0, _⟩ => rfl | ⟨1, _⟩ => rfl)
    rw [Cert.ReferenceIdeal.Read.val_main_v11_apply, Ideal.hostDivf_def, hexp _ rfl,
      Cert.ReferenceIdeal.Read.val_main_v10_apply, Cert.ReferenceIdeal.Read.val_main_v9_apply, ej, hsum, ev,
      rd_eq V hV]
  rw [Finset.sum_congr rfl (fun k _ => hterm k),
    ref_row M (fun k : Fin 8192 => score Q K (i 0).val k.val) (fun k : Fin 8192 => rd V k.val (i 1).val) hpos]
  unfold attn
  rw [num_all, den_all]
  rfl

end Cert.Attn

end
-- ==== Proof.AttnBlocks.lean ====
/-
  What the body is handed at grid point t = 8·qi + ki: the query block is rows 2048·qi … of the first
  argument, the key and value tiles are rows 1024·ki … of the second and third. (The arrays the windows
  stage are the arguments converted to bf16, which changes nothing on the extended reals.) With real data
  the entries are the reals the specification reads.
-/
import proofs.«402719_j29540785062259_3_alg».proof.Proof.Gen.KernelIdeal.Frame
import proofs.«402719_j29540785062259_3_alg».proof.Proof.AttnSpec
import Idealize.ShloMosaic.Lib.Pipeline.Value
import Idealize.ShloMosaic.Lib.StableHlo.Run
import Idealize.ShloMosaic.Lib.ValueIdx

noncomputable section
open Idealize.ShloMosaic Idealize.ShloMosaic.TcCoe Idealize.SL.Sem
open Idealize.ShloMosaic.Pipeline (Dat)

namespace Cert.KernelIdeal.Blocks
open Cert.KernelIdeal Cert.KernelIdeal.Gen

open Idealize.ShloMosaic.ValueIdx Idealize.ShloMosaic.StableHlo Cert.Attn

variable (m : (ℓ : Loc nD τ sig) → Buf (Elt Ideal) ℓ)

/-- The three argument arrays. -/
abbrev Qa (c : Dev nD) : Arr := m ((c : Thread nD τ).loc main_arg0)
abbrev Ka (c : Dev nD) : Arr := m ((c : Thread nD τ).loc main_arg1)
abbrev Va (c : Dev nD) : Arr := m ((c : Thread nD τ).loc main_arg2)

/-- The blocks the body loads at point t, at their literal shapes. -/
abbrev qblk (c : Dev nD) (t : Fin cfg0.N) : Vec Ideal S2048x128 .bf16 := iblk m c 0 t
abbrev kblk (c : Dev nD) (t : Fin cfg0.N) : Vec Ideal S1024x128 .bf16 := iblk m c 1 t
abbrev vblk (c : Dev nD) (t : Fin cfg0.N) : Vec Ideal S1024x128 .bf16 := iblk m c 2 t

/-- The staged arrays are the arguments (a change of float format is the identity here). -/
theorem V_v0 (c : Dev nD) : (V m c main_v0 : S8192x128.Idx → EReal) = Qa m c := by
  dsimp only [Gen.V, Gen.hostOps0]; after_results; rfl
theorem V_v1 (c : Dev nD) : (V m c main_v1 : S8192x128.Idx → EReal) = Ka m c := by
  dsimp only [Gen.V, Gen.hostOps0]; after_results; rfl
theorem V_v2 (c : Dev nD) : (V m c main_v2 : S8192x128.Idx → EReal) = Va m c := by
  dsimp only [Gen.V, Gen.hostOps0]; after_results; rfl

/-- The windows' block indices over the grid: the query block follows t / 8, the key and value tiles t % 8. -/
theorem idx_q : ∀ t : Fin cfg0.N, win0_0.index t (0 : Fin 2) = t.val / 8 ∧ win0_0.index t (1 : Fin 2) = 0 :=
  (by decide +kernel : ∀ t : Fin grid0.N, _)
theorem idx_k : ∀ t : Fin cfg0.N, win0_1.index t (0 : Fin 2) = t.val % 8 ∧ win0_1.index t (1 : Fin 2) = 0 :=
  (by decide +kernel : ∀ t : Fin grid0.N, _)
theorem idx_v : ∀ t : Fin cfg0.N, win0_2.index t (0 : Fin 2) = t.val % 8 ∧ win0_2.index t (1 : Fin 2) = 0 :=
  (by decide +kernel : ∀ t : Fin grid0.N, _)

theorem hN32 : cfg0.N = 32 := N_0

theorem qblk_read (c : Dev nD) (t : Fin cfg0.N) (r : Fin 2048) (d : Fin 128) :
    qblk m c t (ix2 r d) = Qa m c (ix2 ⟨2048 * (t.val / 8) + r.val, by have := t.isLt; have := hN32; omega⟩ d) := by
  show iblk m c 0 t (ix2 r d) = _
  unfold iblk
  rw [View.read_apply]
  show V m c main_v0 _ = _
  rw [V_v0]
  refine congrArg (Qa m c) (funext fun a => Fin.ext ?_)
  match a with
  | ⟨0, _⟩ => show win0_0.index t 0 * 2048 + 1 * r.val = 2048 * (t.val / 8) + r.val; rw [(idx_q t).1]; omega
  | ⟨1, _⟩ => show win0_0.index t 1 * 128 + 1 * d.val = d.val; rw [(idx_q t).2]; omega

theorem kblk_read (c : Dev nD) (t : Fin cfg0.N) (k : Fin 1024) (d : Fin 128) :
    kblk m c t (ix2 k d) = Ka m c (ix2 ⟨1024 * (t.val % 8) + k.val, by omega⟩ d) := by
  show iblk m c 1 t (ix2 k d) = _
  unfold iblk
  rw [View.read_apply]
  show V m c main_v1 _ = _
  rw [V_v1]
  refine congrArg (Ka m c) (funext fun a => Fin.ext ?_)
  match a with
  | ⟨0, _⟩ => show win0_1.index t 0 * 1024 + 1 * k.val = 1024 * (t.val % 8) + k.val; rw [(idx_k t).1]; omega
  | ⟨1, _⟩ => show win0_1.index t 1 * 128 + 1 * d.val = d.val; rw [(idx_k t).2]; omega

theorem vblk_read (c : Dev nD) (t : Fin cfg0.N) (k : Fin 1024) (d : Fin 128) :
    vblk m c t (ix2 k d) = Va m c (ix2 ⟨1024 * (t.val % 8) + k.val, by omega⟩ d) := by
  show iblk m c 2 t (ix2 k d) = _
  unfold iblk
  rw [View.read_apply]
  show V m c main_v2 _ = _
  rw [V_v2]
  refine congrArg (Va m c) (funext fun a => Fin.ext ?_)
  match a with
  | ⟨0, _⟩ => show win0_2.index t 0 * 1024 + 1 * k.val = 1024 * (t.val % 8) + k.val; rw [(idx_v t).1]; omega
  | ⟨1, _⟩ => show win0_2.index t 1 * 128 + 1 * d.val = d.val; rw [(idx_v t).2]; omega

/-- With real data the blocks' entries are the specification's reals. -/
theorem qblk_real (c : Dev nD) (hQ : IsReal (Qa m c)) (t : Fin cfg0.N) (r : Fin 2048) (d : Fin 128) :
    qblk m c t (ix2 r d) = ((rd (Qa m c) (2048 * (t.val / 8) + r.val) d.val : ℝ) : EReal) := by
  rw [qblk_read]; exact rd_eq _ hQ _ _
theorem kblk_real (c : Dev nD) (hK : IsReal (Ka m c)) (t : Fin cfg0.N) (k : Fin 1024) (d : Fin 128) :
    kblk m c t (ix2 k d) = ((rd (Ka m c) (1024 * (t.val % 8) + k.val) d.val : ℝ) : EReal) := by
  rw [kblk_read]; exact rd_eq _ hK _ _
theorem vblk_real (c : Dev nD) (hV : IsReal (Va m c)) (t : Fin cfg0.N) (k : Fin 1024) (d : Fin 128) :
    vblk m c t (ix2 k d) = ((rd (Va m c) (1024 * (t.val % 8) + k.val) d.val : ℝ) : EReal) := by
  rw [vblk_read]; exact rd_eq _ hV _ _

end Cert.KernelIdeal.Blocks
end
-- ==== Proof.AttnPieces.lean ====
/-
  What each control case of the body leaves behind, as functions of the blocks it loads. Every case stores
  the three carried buffers whole: the new running maximum, the new weight sum and the new weighted sum of
  V's rows, each a function of the query block, the key tile, the value tile and the three carried values.
  At the first tile of a query block the carried values are the reset ones the case has just stored (−∞, 0, 0),
  read back; at later tiles they are what the point before left. The last tile also stores the output
  block: the weighted sum over the weight sum, both read back after their stores.
-/
import proofs.«402719_j29540785062259_3_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- The running maximum a key tile leaves: the maximum of the old one and the tile's row maxima. -/
abbrev mNew (x0 : Vec F S2048x128 .bf16) (x1 : Vec F S1024x128 .bf16) (mp : Vec F S2048x1 .f32) : Vec F S2048x1 .f32 :=
  k0_pay2 (k0_pay8 x0 x1 mp)
/-- The weight sum it leaves: the old one rescaled plus the tile's weights' row sums. -/
abbrev lNew (x0 : Vec F S2048x128 .bf16) (x1 : Vec F S1024x128 .bf16) (mp lp : Vec F S2048x1 .f32) : Vec F S2048x1 .f32 :=
  k0_pay11 x0 x1 mp lp
/-- The weighted sum of V's rows it leaves: the old one rescaled plus the tile's weights times its rows of V. -/
abbrev accNew (x0 : Vec F S2048x128 .bf16) (x1 x2 : Vec F S1024x128 .bf16) (mp : Vec F S2048x1 .f32) (ap : Vec F S2048x128 .f32) : Vec F S2048x128 .f32 :=
  k0_pay1 (k0_pay12 x0 x1 x2 mp ap)

theorem sA0 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : cond0_0 i) (hc1 : ¬cond0_1 i)
    (x0 : Vec F S2048x128 .bf16) (x1 : Vec F S1024x128 .bf16) (x2 : Vec F S1024x128 .bf16) :
    sout0_A_0 c i arg2 harg2 arg3 harg3 arg4 harg4 arg5 harg5 arg6 harg6 arg7 harg7 arg8 harg8 hc0 hc1 x0 x1 x2 = mNew x0 x1 k0_pay4 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sA1 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : cond0_0 i) (hc1 : ¬cond0_1 i)
    (x0 : Vec F S2048x128 .bf16) (x1 : Vec F S1024x128 .bf16) (x2 : Vec F S1024x128 .bf16) :
    sout0_A_1 c i arg2 harg2 arg3 harg3 arg4 harg4 arg5 harg5 arg6 harg6 arg7 harg7 arg8 harg8 hc0 hc1 x0 x1 x2 = lNew x0 x1 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sA2 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : cond0_0 i) (hc1 : ¬cond0_1 i)
    (x0 : Vec F S2048x128 .bf16) (x1 : Vec F S1024x128 .bf16) (x2 : Vec F S1024x128 .bf16) :
    sout0_A_2 c i arg2 harg2 arg3 harg3 arg4 harg4 arg5 harg5 arg6 harg6 arg7 harg7 arg8 harg8 hc0 hc1 x0 x1 x2 = accNew x0 x1 x2 k0_pay4 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x128) hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sB0 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : ¬cond0_1 i)
    (x0 : Vec F S2048x128 .bf16) (x1 : Vec F S1024x128 .bf16) (x2 : Vec F S1024x128 .bf16) (xs0 : Vec F S2048x1 .f32) (xs1 : Vec F S2048x1 .f32) (xs2 : Vec F S2048x128 .f32) :
    sout0_B_0 c i arg2 harg2 arg3 harg3 arg4 harg4 arg5 harg5 arg6 harg6 arg7 harg7 arg8 harg8 hc0 hc1 x0 x1 x2 xs0 xs1 xs2 = mNew x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sB1 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : ¬cond0_1 i)
    (x0 : Vec F S2048x128 .bf16) (x1 : Vec F S1024x128 .bf16) (x2 : Vec F S1024x128 .bf16) (xs0 : Vec F S2048x1 .f32) (xs1 : Vec F S2048x1 .f32) (xs2 : Vec F S2048x128 .f32) :
    sout0_B_1 c i arg2 harg2 arg3 harg3 arg4 harg4 arg5 harg5 arg6 harg6 arg7 harg7 arg8 harg8 hc0 hc1 x0 x1 x2 xs0 xs1 xs2 = lNew x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sB2 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : ¬cond0_1 i)
    (x0 : Vec F S2048x128 .bf16) (x1 : Vec F S1024x128 .bf16) (x2 : Vec F S1024x128 .bf16) (xs0 : Vec F S2048x1 .f32) (xs1 : Vec F S2048x1 .f32) (xs2 : Vec F S2048x128 .f32) :
    sout0_B_2 c i arg2 harg2 arg3 harg3 arg4 harg4 arg5 harg5 arg6 harg6 arg7 harg7 arg8 harg8 hc0 hc1 x0 x1 x2 xs0 xs1 xs2 = accNew x0 x1 x2 xs0 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sC0 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : cond0_1 i)
    (x0 : Vec F S2048x128 .bf16) (x1 : Vec F S1024x128 .bf16) (x2 : Vec F S1024x128 .bf16) (xs0 : Vec F S2048x1 .f32) (xs1 : Vec F S2048x1 .f32) (xs2 : Vec F S2048x128 .f32) :
    sout0_C_0 c i arg2 harg2 arg3 harg3 arg4 harg4 arg5 harg5 arg6 harg6 arg7 harg7 arg8 harg8 hc0 hc1 x0 x1 x2 xs0 xs1 xs2 = mNew x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sC1 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : cond0_1 i)
    (x0 : Vec F S2048x128 .bf16) (x1 : Vec F S1024x128 .bf16) (x2 : Vec F S1024x128 .bf16) (xs0 : Vec F S2048x1 .f32) (xs1 : Vec F S2048x1 .f32) (xs2 : Vec F S2048x128 .f32) :
    sout0_C_1 c i arg2 harg2 arg3 harg3 arg4 harg4 arg5 harg5 arg6 harg6 arg7 harg7 arg8 harg8 hc0 hc1 x0 x1 x2 xs0 xs1 xs2 = lNew x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem sC2 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : cond0_1 i)
    (x0 : Vec F S2048x128 .bf16) (x1 : Vec F S1024x128 .bf16) (x2 : Vec F S1024x128 .bf16) (xs0 : Vec F S2048x1 .f32) (xs1 : Vec F S2048x1 .f32) (xs2 : Vec F S2048x128 .f32) :
    sout0_C_2 c i arg2 harg2 arg3 harg3 arg4 harg4 arg5 harg5 arg6 harg6 arg7 harg7 arg8 harg8 hc0 hc1 x0 x1 x2 xs0 xs1 xs2 = accNew x0 x1 x2 xs0 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

theorem oC3 (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x128 .f32) (harg8 : arg8.IsWhole) (hc0 : ¬cond0_0 i) (hc1 : cond0_1 i)
    (x0 : Vec F S2048x128 .bf16) (x1 : Vec F S1024x128 .bf16) (x2 : Vec F S1024x128 .bf16) (xs0 : Vec F S2048x1 .f32) (xs1 : Vec F S2048x1 .f32) (xs2 : Vec F S2048x128 .f32) :
    out0_C_3 c i arg2 harg2 arg3 harg3 arg4 harg4 arg5 harg5 arg6 harg6 arg7 harg7 arg8 harg8 hc0 hc1 x0 x1 x2 xs0 xs1 xs2 = k0_pay3 (accNew x0 x1 x2 xs0 xs2) (lNew x0 x1 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread, View.ld_unit_zero (S := S2048x128) hz, View.ld_unit_zero (S := S1024x128) hz, View.ld_unit_zero (S := S2048x1) hz, View.readCov_unit_zero (S := S2048x1) _ hz, View.readCov_unit_zero (S := S2048x128) _ hz]

end Cert.KernelIdeal.Pieces
end
-- ==== Proof.AttnPay.lean ====
/-
  The body's arithmetic read entry by entry on the extended reals. For a block q of 2048 query rows, a tile
  k of 1024 key rows and the matching tile v of value rows (all [·,128]):
    s(r,c)   = Σ_d q(r,d)·k(c,d)                                  (scores of the tile)
    m'(r)    = max (m(r)) (max_c s(r,c))                          (running maximum; the inner maximum folded from −∞)
    a(r)     = exp (m(r) − m'(r)),   p(r,c) = exp (s(r,c) − m'(r))
    l'(r)    = a(r)·l(r) + Σ_c p(r,c)
    acc'(r,d)= a(r)·acc(r,d) + Σ_c p(r,c)·v(c,d)
    out(r,d) = acc'(r,d) / l'(r)                                  (last tile only)
  Changes of float format are the identity here.
-/
import proofs.«402719_j29540785062259_3_alg».proof.Proof.Gen.KernelIdeal.Frame
import proofs.«402719_j29540785062259_3_alg».proof.Proof.AttnPieces
import proofs.«402719_j29540785062259_3_alg».proof.Proof.LibStreamSoftmax
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem
open Idealize.ShloMosaic.Pipeline (Dat)

namespace Cert.KernelIdeal.Pay
open Cert.KernelIdeal Cert.KernelIdeal.Gen
variable {F : FTy → Type} [FloatOps F]

open Cert.KernelIdeal.Pieces Idealize.ShloMosaic.ValueIdx

/-! ## Layout: a vector as a column, a column copied along the rows -/

/-- A [2048] vector viewed as a [2048,1] column, at (r, z). -/
theorem col_apply (v : FVec Ideal S2048 .f32) (r : Fin 2048) (z : Fin 1) :
    shapeCast S2048x1 v shapeCasts_S2048_S2048x1 (ix2 r z) = v (ix1 r) := by
  refine shapeCast_apply v _ (ix2 r z) (ix1 r) ?_
  rw [Shape.rowMajor_val_one, Shape.rowMajor_val_two]
  have := z.isLt
  show r.val = r.val * 1 + z.val
  omega

/-- A [2048,1] column copied along 1024 columns, at (r, c). -/
theorem bcol1024_apply (v : FVec Ideal S2048x1 .f32) (r : Fin 2048) (c : Fin 1024) :
    broadcastTo S2048x1024 v broadcasts_S2048x1_S2048x1024 (ix2 r c) = v (ix2 r (0 : Fin 1)) :=
  broadcastTo_apply v _ (ix2 r c) (ix2 r (0 : Fin 1)) (fun a => by
    match a with
    | ⟨0, _⟩ => show r.val = if (2048 : Nat) = 1 then 0 else r.val; rw [if_neg (by decide)]
    | ⟨1, _⟩ => show 0 = if (1 : Nat) = 1 then 0 else c.val; rw [if_pos rfl])

/-- A [2048,1] column copied along 128 columns, at (r, d). -/
theorem bcol128_apply (v : FVec Ideal S2048x1 .f32) (r : Fin 2048) (d : Fin 128) :
    broadcastTo S2048x128 v broadcasts_S2048x1_S2048x128 (ix2 r d) = v (ix2 r (0 : Fin 1)) :=
  broadcastTo_apply v _ (ix2 r d) (ix2 r (0 : Fin 1)) (fun a => by
    match a with
    | ⟨0, _⟩ => show r.val = if (2048 : Nat) = 1 then 0 else r.val; rw [if_neg (by decide)]
    | ⟨1, _⟩ => show 0 = if (1 : Nat) = 1 then 0 else d.val; rw [if_pos rfl])

/-! ## The two block products -/

theorem lhs_qk_0 (i : S2048x1024.Idx) (q : dot_S2048x128_S1024x128_S2048x1024_1_1_0_0_n_n.contr.Idx) :
    (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
theorem lhs_qk_1 (i : S2048x1024.Idx) (q : dot_S2048x128_S1024x128_S2048x1024_1_1_0_0_n_n.contr.Idx) :
    (dot_S2048x128_S1024x128_S2048x1024_1_1_0_0_n_n.lhsIdx i q 1).val = (q ⟨0, by decide⟩).val :=
  dot_S2048x128_S1024x128_S2048x1024_1_1_0_0_n_n.lhsIdx_val_of_single rfl i q
theorem rhs_qk_0 (i : S2048x1024.Idx) (q : dot_S2048x128_S1024x128_S2048x1024_1_1_0_0_n_n.contr.Idx) :
    (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
theorem rhs_qk_1 (i : S2048x1024.Idx) (q : dot_S2048x128_S1024x128_S2048x1024_1_1_0_0_n_n.contr.Idx) :
    (dot_S2048x128_S1024x128_S2048x1024_1_1_0_0_n_n.rhsIdx i q 1).val = (q ⟨0, by decide⟩).val :=
  dot_S2048x128_S1024x128_S2048x1024_1_1_0_0_n_n.rhsIdx_val_of_single rfl i q

/-- The tile's scores: row r of the query block against row c of the key tile. -/
theorem scores_apply (x0 : Vec Ideal S2048x128 .bf16) (x1 : Vec Ideal S1024x128 .bf16) (r : Fin 2048) (c : Fin 1024) :
    k0_pay7 (F := Ideal) x0 x1 (ix2 r c) = ∑ d : Fin 128, x0 (ix2 r d) * x1 (ix2 c d) := by
  unfold k0_pay7
  simp only [matmul, shapeCast_self]
  rw [Ideal.matmul_constant_zero_apply, ← Equiv.sum_comp (ValueIdx.contrEquiv1 dot_S2048x128_S1024x128_S2048x1024_1_1_0_0_n_n 128 rfl rfl).symm]
  refine Finset.sum_congr rfl fun k _ => ?_
  have hk := ValueIdx.contrEquiv1_symm_val dot_S2048x128_S1024x128_S2048x1024_1_1_0_0_n_n 128 rfl rfl k
  have el : dot_S2048x128_S1024x128_S2048x1024_1_1_0_0_n_n.lhsIdx (ix2 r c) ((ValueIdx.contrEquiv1 dot_S2048x128_S1024x128_S2048x1024_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S2048x128_S1024x128_S2048x1024_1_1_0_0_n_n.rhsIdx (ix2 r c) ((ValueIdx.contrEquiv1 dot_S2048x128_S1024x128_S2048x1024_1_1_0_0_n_n 128 rfl rfl).symm k) = ix2 c k := funext fun a => Fin.ext (by
    match a with
    | ⟨0, _⟩ => exact rhs_qk_0 _ _
    | ⟨1, _⟩ => exact (rhs_qk_1 _ _).trans hk)
  rw [el, er]

theorem lhs_pv_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_pv_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_pv_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_pv_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- Weights times the value tile: row r of p against column d of v. -/
theorem pv_apply (p : FVec Ideal S2048x1024 .bf16) (x2 : FVec Ideal S1024x128 .bf16) (r : Fin 2048) (d : Fin 128) :
    matmul dot_S2048x1024_S1024x128_S2048x128_1_0_0_1_n_n none p x2 (constant S2048x128 .f32 0x00000000#32) (ix2 r d)
      = ∑ c : Fin 1024, p (ix2 r c) * x2 (ix2 c d) := by
  simp only [matmul]
  rw [Ideal.matmul_constant_zero_apply, ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 r d) ((ValueIdx.contrEquiv1 dot_S2048x1024_S1024x128_S2048x128_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S2048x1024_S1024x128_S2048x128_1_0_0_1_n_n.rhsIdx (ix2 r d) ((ValueIdx.contrEquiv1 dot_S2048x1024_S1024x128_S2048x128_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

/-! ## Row maxima and row sums of a [2048,1024] block, as columns -/

/-- The row maxima (folded from the −∞ word) as a column, at (r, z). -/
theorem rowmax_apply (s : FVec Ideal S2048x1024 .f32) (r : Fin 2048) (z : Fin 1) :
    shapeCast S2048x1 (multiReduction .maximumf [1] S2048 s 0xFF800000#32 reduces_S2048x1024_S2048 (.inl rfl) rfl) shapeCasts_S2048_S2048x1 (ix2 r z)
      = (Finset.univ : Finset (Fin 1024)).fold max (⊥ : EReal) (fun c => s (ix2 r c)) := by
  rw [col_apply]
  refine (Ideal.multiReduction_maximumf_single s _ reduces_S2048x1024_S2048 (.inl rfl) rfl (ix1 r)).trans ?_
  show (Finset.univ : Finset (Fin 1024)).fold max (Ideal.ofBits .f32 0xFF800000#32) _ = _
  rw [Cert.Attn.ofBits_neg_inf]
  refine congrArg (fun f => (Finset.univ : Finset (Fin 1024)).fold max (⊥ : EReal) f) (funext fun c => ?_)
  exact congrArg s (funext fun a => Fin.ext (by match a with | ⟨0, _⟩ => rfl | ⟨1, _⟩ => rfl))

/-- The row sums as a column, at (r, z). -/
theorem rowsum_apply (p : FVec Ideal S2048x1024 .f32) (r : Fin 2048) (z : Fin 1) :
    shapeCast S2048x1 (multiReduction .add [1] S2048 p 0x00000000#32 reduces_S2048x1024_S2048 (.inl rfl) rfl) shapeCasts_S2048_S2048x1 (ix2 r z)
      = ∑ c : Fin 1024, p (ix2 r c) := by
  rw [col_apply]
  refine (Ideal.multiReduction_add_single p _ reduces_S2048x1024_S2048 (.inl rfl) rfl (ix1 r)).trans ?_
  refine Finset.sum_congr rfl fun c _ => ?_
  exact congrArg p (funext fun a => Fin.ext (by match a with | ⟨0, _⟩ => rfl | ⟨1, _⟩ => rfl))

/-! ## The body's values, entry by entry -/

variable (x0 : Vec Ideal S2048x128 .bf16) (x1 x2 : Vec Ideal S1024x128 .bf16)
  (mp lp : Vec Ideal S2048x1 .f32) (ap : Vec Ideal S2048x128 .f32)

/-- The new running maximum at row r. -/
theorem mNew_apply (r : Fin 2048) (z : Fin 1) :
    mNew (F := Ideal) x0 x1 mp (ix2 r z)
      = max (mp (ix2 r z)) ((Finset.univ : Finset (Fin 1024)).fold max (⊥ : EReal) (fun c => k0_pay7 (F := Ideal) x0 x1 (ix2 r c))) := by
  show k0_pay2 (k0_pay8 (F := Ideal) x0 x1 mp) (ix2 r z) = _
  unfold k0_pay2 k0_pay8
  simp only [shapeCast_self]
  exact congrArg (max (mp (ix2 r z))) (rowmax_apply _ r z)

/-- The rescaling factor exp(m − m') at row r. -/
theorem a_apply (r : Fin 2048) (z : Fin 1) :
    k0_pay9 (F := Ideal) x0 x1 mp (ix2 r z) = Ideal.exp (mp (ix2 r z) - mNew (F := Ideal) x0 x1 mp (ix2 r z)) := by
  show _ = Ideal.exp (mp (ix2 r z) - k0_pay2 (k0_pay8 (F := Ideal) x0 x1 mp) (ix2 r z))
  unfold k0_pay2
  simp only [shapeCast_self]
  rfl

/-- The tile's weights exp(s − m') at (r, c). -/
theorem p_apply (r : Fin 2048) (c : Fin 1024) :
    k0_pay10 (F := Ideal) x0 x1 mp (ix2 r c)
      = Ideal.exp (k0_pay7 (F := Ideal) x0 x1 (ix2 r c) - mNew (F := Ideal) x0 x1 mp (ix2 r (0 : Fin 1))) := by
  show _ = Ideal.exp (_ - k0_pay2 (k0_pay8 (F := Ideal) x0 x1 mp) (ix2 r (0 : Fin 1)))
  unfold k0_pay2 k0_pay10
  simp only [shapeCast_self]
  show Ideal.exp (k0_pay7 x0 x1 (ix2 r c) - broadcastTo S2048x1024 (k0_pay8 x0 x1 mp) broadcasts_S2048x1_S2048x1024 (ix2 r c)) = _
  rw [bcol1024_apply]

/-- The new weight sum at row r. -/
theorem lNew_apply (r : Fin 2048) (z : Fin 1) :
    lNew (F := Ideal) x0 x1 mp lp (ix2 r z)
      = k0_pay9 (F := Ideal) x0 x1 mp (ix2 r z) * lp (ix2 r z) + ∑ c : Fin 1024, k0_pay10 (F := Ideal) x0 x1 mp (ix2 r c) := by
  show k0_pay11 (F := Ideal) x0 x1 mp lp (ix2 r z) = _
  unfold k0_pay11
  simp only [shapeCast_self]
  show k0_pay9 x0 x1 mp (ix2 r z) * lp (ix2 r z) + shapeCast S2048x1 _ shapeCasts_S2048_S2048x1 (ix2 r z) = _
  rw [rowsum_apply]

/-- The new weighted sum of V's rows at (r, d). -/
theorem accNew_apply (r : Fin 2048) (d : Fin 128) :
    accNew (F := Ideal) x0 x1 x2 mp ap (ix2 r d)
      = k0_pay9 (F := Ideal) x0 x1 mp (ix2 r (0 : Fin 1)) * ap (ix2 r d) + ∑ c : Fin 1024, k0_pay10 (F := Ideal) x0 x1 mp (ix2 r c) * x2 (ix2 c d) := by
  show k0_pay1 (k0_pay12 (F := Ideal) x0 x1 x2 mp ap) (ix2 r d) = _
  unfold k0_pay1 k0_pay12
  simp only [shapeCast_self]
  show broadcastTo S2048x128 (k0_pay9 x0 x1 mp) broadcasts_S2048x1_S2048x128 (ix2 r d) * ap (ix2 r d)
      + matmul dot_S2048x1024_S1024x128_S2048x128_1_0_0_1_n_n none (truncf .bf16 (k0_pay10 x0 x1 mp) bitsLt_bf16_f32) x2 (constant S2048x128 .f32 0x00000000#32) (ix2 r d) = _
  rw [bcol128_apply, pv_apply]
  rfl

/-- The output block at (r, d): the weighted sum over the weight sum. -/
theorem out_apply (acc : Vec Ideal S2048x128 .f32) (l : Vec Ideal S2048x1 .f32) (r : Fin 2048) (d : Fin 128) :
    k0_pay3 (F := Ideal) acc l (ix2 r d) = Ideal.div (acc (ix2 r d)) (l (ix2 r (0 : Fin 1))) := by
  unfold k0_pay3
  show Ideal.div (acc (ix2 r d)) (broadcastTo S2048x128 l broadcasts_S2048x1_S2048x128 (ix2 r d)) = _
  rw [bcol128_apply]

end Cert.KernelIdeal.Pay
end
-- ==== Proof.AttnStep.lean ====
/-
  One key tile's effect on a query block's carried state. The state after the first n keys is described by
  SOME real μ(r) per row: m(r) = μ(r), l(r) = exp(−μ(r))·Σ_{k<n} w(q,k), acc(r,d) = exp(−μ(r))·Σ_{k<n} w(q,k)·V(k,d),
  with q = 2048·qb + r and w = exp(score). A tile of the next 1024 keys gives the same description at
  n + 1024 with μ'(r) = max(μ(r), max_c s(r,c)); from the reset values (−∞, 0, 0) it gives it at 1024.
  After all 8192 keys the quotient acc/l is attention, since Σ w > 0 and exp(−μ) cancels.
-/
import proofs.«402719_j29540785062259_3_alg».proof.Proof.Gen.KernelIdeal.Frame
import proofs.«402719_j29540785062259_3_alg».proof.Proof.AttnSpec
import proofs.«402719_j29540785062259_3_alg».proof.Proof.LibStreamSoftmax
import proofs.«402719_j29540785062259_3_alg».proof.Proof.AttnPay
import Idealize.ShloMosaic.Lib.ValueIdx

noncomputable section
open Idealize.ShloMosaic Idealize.ShloMosaic.TcCoe Idealize.SL.Sem
open Idealize.ShloMosaic.Pipeline (Dat)

namespace Cert.KernelIdeal.Step
open Cert.KernelIdeal Cert.KernelIdeal.Gen

open Idealize.ShloMosaic.ValueIdx Cert.Attn Cert.KernelIdeal.Pieces Cert.KernelIdeal.Pay

variable (Q K V : Arr)

/-- The carried state of query block qb after its first n keys, up to the row-wise reference point μ. -/
def St (qb n : ℕ) (ms ls : Vec Ideal S2048x1 .f32) (acs : Vec Ideal S2048x128 .f32) : Prop :=
  ∃ μ : Fin 2048 → ℝ,
    (∀ (r : Fin 2048) (z : Fin 1), ms (ix2 r z) = ((μ r : ℝ) : EReal)) ∧
    (∀ (r : Fin 2048) (z : Fin 1), ls (ix2 r z) = ((Real.exp (-μ r) * den Q K (2048 * qb + r.val) n : ℝ) : EReal)) ∧
    (∀ (r : Fin 2048) (d : Fin 128), acs (ix2 r d) = ((Real.exp (-μ r) * num Q K V (2048 * qb + r.val) d.val n : ℝ) : EReal))

variable {Q K V}
variable {qb n : ℕ} {x0 : Vec Ideal S2048x128 .bf16} {x1 x2 : Vec Ideal S1024x128 .bf16}

/-- The tile's scores are the specification's. -/
theorem scores_real
    (hq : ∀ (r : Fin 2048) (d : Fin 128), x0 (ix2 r d) = ((rd Q (2048 * qb + r.val) d.val : ℝ) : EReal))
    (hk : ∀ (k : Fin 1024) (d : Fin 128), x1 (ix2 k d) = ((rd K (n + k.val) d.val : ℝ) : EReal))
    (r : Fin 2048) (c : Fin 1024) :
    k0_pay7 (F := Ideal) x0 x1 (ix2 r c) = ((score Q K (2048 * qb + r.val) (n + c.val) : ℝ) : EReal) := by
  rw [scores_apply, score_eq, ← dot_coe]
  exact Finset.sum_congr rfl fun d _ => by rw [hq, hk]

/-- A later tile. -/
theorem step {mp lp : Vec Ideal S2048x1 .f32} {ap : Vec Ideal S2048x128 .f32}
    (hq : ∀ (r : Fin 2048) (d : Fin 128), x0 (ix2 r d) = ((rd Q (2048 * qb + r.val) d.val : ℝ) : EReal))
    (hk : ∀ (k : Fin 1024) (d : Fin 128), x1 (ix2 k d) = ((rd K (n + k.val) d.val : ℝ) : EReal))
    (hv : ∀ (k : Fin 1024) (d : Fin 128), x2 (ix2 k d) = ((rd V (n + k.val) d.val : ℝ) : EReal))
    (h : St Q K V qb n mp lp ap) :
    St Q K V qb (n + 1024) (mNew (F := Ideal) x0 x1 mp) (lNew (F := Ideal) x0 x1 mp lp) (accNew (F := Ideal) x0 x1 x2 mp ap) := by
  obtain ⟨μ, hm, hl, ha⟩ := h
  have hs := scores_real (Q := Q) (K := K) hq hk
  have hex : ∀ r : Fin 2048, ∃ μ' : ℝ, max ((μ r : ℝ) : EReal)
      ((Finset.univ : Finset (Fin 1024)).fold max (⊥ : EReal) (fun c => ((score Q K (2048 * qb + r.val) (n + c.val) : ℝ) : EReal))) = (μ' : EReal) :=
    fun r => max_real (μ r) _
  choose μ' hμ' using hex
  have hmn : ∀ (r : Fin 2048) (z : Fin 1), mNew (F := Ideal) x0 x1 mp (ix2 r z) = ((μ' r : ℝ) : EReal) := fun r z => by
    rw [mNew_apply, hm]
    refine Eq.trans ?_ (hμ' r)
    exact congrArg (fun f => max ((μ r : ℝ) : EReal) ((Finset.univ : Finset (Fin 1024)).fold max (⊥ : EReal) f)) (funext fun c => hs r c)
  have hp : ∀ (r : Fin 2048) (c : Fin 1024), k0_pay10 (F := Ideal) x0 x1 mp (ix2 r c)
      = Ideal.exp (((score Q K (2048 * qb + r.val) (n + c.val) : ℝ) : EReal) - ((μ' r : ℝ) : EReal)) := fun r c => by
    rw [p_apply, hs, hmn]
  have hsc : ∀ (r : Fin 2048) (z : Fin 1), k0_pay9 (F := Ideal) x0 x1 mp (ix2 r z)
      = Ideal.exp (((μ r : ℝ) : EReal) - ((μ' r : ℝ) : EReal)) := fun r z => by
    rw [a_apply, hm, hmn]
  refine ⟨μ', hmn, fun r z => ?_, fun r d => ?_⟩
  · rw [lNew_apply, hsc, hl, rescale, den_tile, ← carry_add]
    refine congrArg (_ + ·) ((Finset.sum_congr rfl fun c _ => hp r c).trans ?_)
    exact tile_den (μ' r) (fun c : Fin 1024 => score Q K (2048 * qb + r.val) (n + c.val))
  · rw [accNew_apply, hsc, ha, rescale, num_tile, ← carry_add]
    refine congrArg (_ + ·) ((Finset.sum_congr rfl fun c _ => by rw [hp, hv]).trans ?_)
    exact tile_num (μ' r) (fun c : Fin 1024 => score Q K (2048 * qb + r.val) (n + c.val)) (fun c : Fin 1024 => rd V (n + c.val) d.val)

/-- The reset values: −∞ for the maximum, 0 for the two sums. -/
theorem reset_m (r : Fin 2048) (z : Fin 1) : k0_pay4 (F := Ideal) (ix2 r z) = (⊥ : EReal) := by
  show Ideal.ofBits .f32 0xFF800000#32 = _
  exact ofBits_neg_inf
theorem reset_l (r : Fin 2048) (z : Fin 1) : k0_pay5 (F := Ideal) (ix2 r z) = (0 : EReal) := by
  show Ideal.ofBits .f32 0x00000000#32 = _
  exact Ideal.ofBits_zero_f32
theorem reset_acc (r : Fin 2048) (d : Fin 128) : k0_pay6 (F := Ideal) (ix2 r d) = (0 : EReal) := by
  show Ideal.ofBits .f32 0x00000000#32 = _
  exact Ideal.ofBits_zero_f32

/-- The first tile, from the reset values. -/
theorem step_first
    (hq : ∀ (r : Fin 2048) (d : Fin 128), x0 (ix2 r d) = ((rd Q (2048 * qb + r.val) d.val : ℝ) : EReal))
    (hk : ∀ (k : Fin 1024) (d : Fin 128), x1 (ix2 k d) = ((rd K (0 + k.val) d.val : ℝ) : EReal))
    (hv : ∀ (k : Fin 1024) (d : Fin 128), x2 (ix2 k d) = ((rd V (0 + k.val) d.val : ℝ) : EReal)) :
    St Q K V qb (0 + 1024) (mNew (F := Ideal) x0 x1 (k0_pay4 (F := Ideal))) (lNew (F := Ideal) x0 x1 (k0_pay4 (F := Ideal)) (k0_pay5 (F := Ideal)))
      (accNew (F := Ideal) x0 x1 x2 (k0_pay4 (F := Ideal)) (k0_pay6 (F := Ideal))) := by
  have hs := scores_real (Q := Q) (K := K) (n := 0) hq hk
  have hex : ∀ r : Fin 2048, ∃ μ' : ℝ, max (⊥ : EReal)
      ((Finset.univ : Finset (Fin 1024)).fold max (⊥ : EReal) (fun c => ((score Q K (2048 * qb + r.val) (0 + c.val) : ℝ) : EReal))) = (μ' : EReal) :=
    fun r => max_real_first _
  choose μ' hμ' using hex
  have hmn : ∀ (r : Fin 2048) (z : Fin 1), mNew (F := Ideal) x0 x1 (k0_pay4 (F := Ideal)) (ix2 r z) = ((μ' r : ℝ) : EReal) := fun r z => by
    rw [mNew_apply, reset_m]
    refine Eq.trans ?_ (hμ' r)
    exact congrArg (fun f => max (⊥ : EReal) ((Finset.univ : Finset (Fin 1024)).fold max (⊥ : EReal) f)) (funext fun c => hs r c)
  have hp : ∀ (r : Fin 2048) (c : Fin 1024), k0_pay10 (F := Ideal) x0 x1 (k0_pay4 (F := Ideal)) (ix2 r c)
      = Ideal.exp (((score Q K (2048 * qb + r.val) (0 + c.val) : ℝ) : EReal) - ((μ' r : ℝ) : EReal)) := fun r c => by
    rw [p_apply, hs, hmn]
  have hsc : ∀ (r : Fin 2048) (z : Fin 1), k0_pay9 (F := Ideal) x0 x1 (k0_pay4 (F := Ideal)) (ix2 r z)
      = Ideal.exp ((⊥ : EReal) - ((μ' r : ℝ) : EReal)) := fun r z => by
    rw [a_apply, reset_m, hmn]
  refine ⟨μ', hmn, fun r z => ?_, fun r d => ?_⟩
  · rw [lNew_apply, hsc, reset_l, rescale_first, den_tile, den_zero, ← carry_add]
    refine congrArg (_ + ·) ((Finset.sum_congr rfl fun c _ => hp r c).trans ?_)
    exact tile_den (μ' r) (fun c : Fin 1024 => score Q K (2048 * qb + r.val) (0 + c.val))
  · rw [accNew_apply, hsc, reset_acc, rescale_first, num_tile, num_zero, ← carry_add]
    refine congrArg (_ + ·) ((Finset.sum_congr rfl fun c _ => by rw [hp, hv]).trans ?_)
    exact tile_num (μ' r) (fun c : Fin 1024 => score Q K (2048 * qb + r.val) (0 + c.val)) (fun c : Fin 1024 => rd V (0 + c.val) d.val)

/-- After all the keys the quotient is attention. -/
theorem out_of_St {ms ls : Vec Ideal S2048x1 .f32} {acs : Vec Ideal S2048x128 .f32} (hqb : qb < 4)
    (h : St Q K V qb 8192 ms ls acs) (r : Fin 2048) (d : Fin 128) :
    k0_pay3 (F := Ideal) acs ls (ix2 r d) = attn Q K V (ix2 ⟨2048 * qb + r.val, by omega⟩ d) := by
  obtain ⟨μ, _, hl, ha⟩ := h
  rw [out_apply, ha, hl, final_div _ _ _ (den_pos Q K _ 8192 (by decide))]
  rfl

end Cert.KernelIdeal.Step
end
-- ==== Proof.AttnFinal.lean ====
/-
  The result array from the blocks written back. The output window's block index is the query-block number
  t / 8, the same for the eight points of a query block; only the last of them (t % 8 = 7) stores the block
  and writes it back. Those four write-backs tile the [8192,128] result: row R lies in the block written at
  point 8·(R / 2048) + 7. So if every last-tile block holds the attention rows of its query block, the
  result array is attention.
-/
import proofs.«402719_j29540785062259_3_alg».proof.Proof.Gen.KernelIdeal.Frame
import proofs.«402719_j29540785062259_3_alg».proof.Proof.Gen.KernelIdeal.Value
import proofs.«402719_j29540785062259_3_alg».proof.Proof.AttnSpec
import proofs.«402719_j29540785062259_3_alg».proof.Proof.AttnBlocks
import Idealize.ShloMosaic.Lib.Pipeline.Value
import Idealize.ShloMosaic.Lib.ValueIdx

noncomputable section
open Idealize.ShloMosaic Idealize.ShloMosaic.TcCoe Idealize.SL.Sem
open Idealize.ShloMosaic.Pipeline (Dat)

namespace Cert.KernelIdeal.Final
open Cert.KernelIdeal Cert.KernelIdeal.Gen

open Idealize.ShloMosaic.ValueIdx Cert.Attn Cert.KernelIdeal.Blocks

variable (m : (ℓ : Loc nD τ sig) → Buf (Elt Ideal) ℓ)

/-- Every last-tile point leaves, in the output's staging buffer, the attention rows of its query block. -/
def OutOk (c : Dev nD) : Prop :=
  ∀ (t : Fin cfg0.N), t.val % 8 = 7 → ∀ (r : Fin 2048) (d : Fin 128),
    ((outsAt0 m c t.val t.isLt).1 : Vec Ideal S2048x128 .f32) (ix2 r d)
      = attn (Qa m c) (Ka m c) (Va m c) (ix2 ⟨2048 * (t.val / 8) + r.val, by have := t.isLt; have := hN32; omega⟩ d)

/-- The output window's block index over the grid: the query-block number, and column block 0. -/
theorem idx_o : ∀ t : Fin cfg0.N, win0_3.index t (0 : Fin 2) = t.val / 8 ∧ win0_3.index t (1 : Fin 2) = 0 :=
  (by decide +kernel : ∀ t : Fin grid0.N, _)

/-- What a last-tile point writes back is its block of attention: entry (r,d) of the block is row
    2048·(t/8)+r, column d of the array. -/
theorem flushed_attn (c : Dev nD) (h : OutOk m c) (t : Fin cfg0.N) (hf : (cfg0.win 3).flush t = true) :
    (dats m 0 c).flushed 3 t
      = ((cfg0.win 3).blk t).view.read (Elt Ideal) (attn (Qa m c) (Ka m c) (Va m c)) := by
  have h7 : t.val % 8 = 7 := (flush0_3 t).mp hf
  rw [Value.flushed3]
  funext j
  obtain ⟨r, d, rfl⟩ : ∃ (r : Fin 2048) (d : Fin 128), j = ix2 r d := ⟨j 0, j 1, eq_ix2 j⟩
  rw [View.read_apply]
  have e1 : (cfg0.win 3).xinj (grid0.coords t) (ix2 r d) = ix2 r d :=
    funext fun a => Fin.ext (by match a with | ⟨0, _⟩ => rfl | ⟨1, _⟩ => rfl)
  show ((outsAt0 m c t.val t.isLt).1 : Vec Ideal S2048x128 .f32) ((cfg0.win 3).xinj (grid0.coords t) (ix2 r d)) = _
  rw [e1, h t h7 r d]
  refine congrArg (attn (Qa m c) (Ka m c) (Va m c)) (funext fun a => Fin.ext ?_)
  match a with
  | ⟨0, _⟩ => show 2048 * (t.val / 8) + r.val = win0_3.index t 0 * 2048 + 1 * r.val; rw [(idx_o t).1]; omega
  | ⟨1, _⟩ => show d.val = win0_3.index t 1 * 128 + 1 * d.val; rw [(idx_o t).2]; omega

/-- An index of the array is in point t's block iff each coordinate is in the block's range on its axis. -/
theorem mem_blk_o (t : Fin cfg0.N) (i : S8192x128.Idx) :
    i ∈ ((cfg0.win 3).blk t).view.set
      ↔ ∀ a : Fin 2, win0_3.index t a * S2048x128.size a ≤ (i a).val
          ∧ (i a).val < win0_3.index t a * S2048x128.size a + S2048x128.size a := by
  show i ∈ ((View.whole main_v3).slice (win0_3.rect t)).set ↔ _
  rw [View.set_slice_whole, Rect.mem_set_unit]
  exact Iff.rfl

/-- Row R of the array lies in the block written back at point 8·(R / 2048) + 7. -/
theorem cover_o (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN := hN32
  refine ⟨⟨8 * ((i 0).val / 2048) + 7, by omega⟩, (flush0_3 _).mpr (by show (8 * ((i 0).val / 2048) + 7) % 8 = 7; omega), ?_⟩
  rw [mem_blk_o]
  intro a
  match a with
  | ⟨0, _⟩ =>
    show win0_3.index _ (0 : Fin 2) * 2048 ≤ (i 0).val ∧ (i 0).val < win0_3.index _ (0 : Fin 2) * 2048 + 2048
    rw [(idx_o _).1]
    show (8 * ((i 0).val / 2048) + 7) / 8 * 2048 ≤ (i 0).val ∧ (i 0).val < (8 * ((i 0).val / 2048) + 7) / 8 * 2048 + 2048
    omega
  | ⟨1, _⟩ =>
    show win0_3.index _ (1 : Fin 2) * 128 ≤ (i 1).val ∧ (i 1).val < win0_3.index _ (1 : Fin 2) * 128 + 128
    rw [(idx_o _).2]
    omega

/-- Then the result array after the run is attention of the three arguments. -/
theorem final_attn (c : Dev nD) (h : OutOk m c) :
    ((dats m 0 c).arrAt 3 cfg0.N : S8192x128.Idx → EReal) = attn (Qa m c) (Ka m c) (Va m c) := by
  exact (dats m 0 c).arrAt_eq_of_cover 3 (attn (Qa m c) (Ka m c) (Va m c)) (fun t hf => flushed_attn m c h t hf) cover_o

end Cert.KernelIdeal.Final
end
-- ==== Proof.AttnInv.lean ====
/-
  The carried state over the grid. Point t = 8·qb + j handles query block qb against key tile j; the eight
  points of a query block run in order, the first from the reset values, each later one from what the point
  before left. By induction on the point, after point t the three scratch buffers describe query block
  qb = t / 8 after its first 1024·(t % 8) + 1024 keys; at the last tile (t % 8 = 7) that is all 8192 keys
  and the block stored into the output is attention's rows 2048·qb … .
-/
import proofs.«402719_j29540785062259_3_alg».proof.Proof.Gen.KernelIdeal.Frame
import proofs.«402719_j29540785062259_3_alg».proof.Proof.AttnSpec
import proofs.«402719_j29540785062259_3_alg».proof.Proof.AttnPieces
import proofs.«402719_j29540785062259_3_alg».proof.Proof.AttnBlocks
import proofs.«402719_j29540785062259_3_alg».proof.Proof.AttnStep
import proofs.«402719_j29540785062259_3_alg».proof.Proof.AttnFinal
import Idealize.ShloMosaic.Lib.ValueIdx

noncomputable section
open Idealize.ShloMosaic Idealize.ShloMosaic.TcCoe Idealize.SL.Sem
open Idealize.ShloMosaic.Pipeline (Dat)

namespace Cert.KernelIdeal.Inv
open Cert.KernelIdeal Cert.KernelIdeal.Gen

open Idealize.ShloMosaic.ValueIdx Cert.Attn Cert.KernelIdeal.Pieces Cert.KernelIdeal.Blocks Cert.KernelIdeal.Step Cert.KernelIdeal.Final

variable (m : (ℓ : Loc nD τ sig) → Buf (Elt Ideal) ℓ)

/-- What the point before t left in the three scratch buffers, at their literal shapes. -/
abbrev pm (c : Dev nD) (t : Fin cfg0.N) : Vec Ideal S2048x1 .f32 := (outsAt0 m c (t.val - 1) (Nat.lt_of_le_of_lt (Nat.sub_le _ _) t.isLt)).2.1
abbrev pl (c : Dev nD) (t : Fin cfg0.N) : Vec Ideal S2048x1 .f32 := (outsAt0 m c (t.val - 1) (Nat.lt_of_le_of_lt (Nat.sub_le _ _) t.isLt)).2.2.1
abbrev pa (c : Dev nD) (t : Fin cfg0.N) : Vec Ideal S2048x128 .f32 := (outsAt0 m c (t.val - 1) (Nat.lt_of_le_of_lt (Nat.sub_le _ _) t.isLt)).2.2.2

/-! ## Each point's contents as the step functions of its blocks -/

theorem mA (c : Dev nD) (t : Fin cfg0.N) (h0 : t.val % 8 = 0) (h1 : ¬t.val % 8 = 7) :
    (outsAt0 m c t.val t.isLt).2.1 = mNew (F := Ideal) (qblk m c t) (kblk m c t) (k0_pay4 (F := Ideal)) := by
  rw [outsAt0_A m c t h0 h1]
  dsimp only
  exact sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem lA (c : Dev nD) (t : Fin cfg0.N) (h0 : t.val % 8 = 0) (h1 : ¬t.val % 8 = 7) :
    (outsAt0 m c t.val t.isLt).2.2.1 = lNew (F := Ideal) (qblk m c t) (kblk m c t) (k0_pay4 (F := Ideal)) (k0_pay5 (F := Ideal)) := by
  rw [outsAt0_A m c t h0 h1]
  dsimp only
  exact sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem aA (c : Dev nD) (t : Fin cfg0.N) (h0 : t.val % 8 = 0) (h1 : ¬t.val % 8 = 7) :
    (outsAt0 m c t.val t.isLt).2.2.2 = accNew (F := Ideal) (qblk m c t) (kblk m c t) (vblk m c t) (k0_pay4 (F := Ideal)) (k0_pay6 (F := Ideal)) := by
  rw [outsAt0_A m c t h0 h1]
  dsimp only
  exact sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

theorem mB (c : Dev nD) (t : Fin cfg0.N) (h0 : ¬t.val % 8 = 0) (h1 : ¬t.val % 8 = 7) :
    (outsAt0 m c t.val t.isLt).2.1 = mNew (F := Ideal) (qblk m c t) (kblk m c t) (pm m c t) := by
  rw [outsAt0_B m c t h0 h1]
  dsimp only
  exact sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem lB (c : Dev nD) (t : Fin cfg0.N) (h0 : ¬t.val % 8 = 0) (h1 : ¬t.val % 8 = 7) :
    (outsAt0 m c t.val t.isLt).2.2.1 = lNew (F := Ideal) (qblk m c t) (kblk m c t) (pm m c t) (pl m c t) := by
  rw [outsAt0_B m c t h0 h1]
  dsimp only
  exact sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem aB (c : Dev nD) (t : Fin cfg0.N) (h0 : ¬t.val % 8 = 0) (h1 : ¬t.val % 8 = 7) :
    (outsAt0 m c t.val t.isLt).2.2.2 = accNew (F := Ideal) (qblk m c t) (kblk m c t) (vblk m c t) (pm m c t) (pa m c t) := by
  rw [outsAt0_B m c t h0 h1]
  dsimp only
  exact sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem mC (c : Dev nD) (t : Fin cfg0.N) (h0 : ¬t.val % 8 = 0) (h1 : t.val % 8 = 7) :
    (outsAt0 m c t.val t.isLt).2.1 = mNew (F := Ideal) (qblk m c t) (kblk m c t) (pm m c t) := by
  rw [outsAt0_C m c t h0 h1]
  dsimp only
  exact sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem lC (c : Dev nD) (t : Fin cfg0.N) (h0 : ¬t.val % 8 = 0) (h1 : t.val % 8 = 7) :
    (outsAt0 m c t.val t.isLt).2.2.1 = lNew (F := Ideal) (qblk m c t) (kblk m c t) (pm m c t) (pl m c t) := by
  rw [outsAt0_C m c t h0 h1]
  dsimp only
  exact sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem aC (c : Dev nD) (t : Fin cfg0.N) (h0 : ¬t.val % 8 = 0) (h1 : t.val % 8 = 7) :
    (outsAt0 m c t.val t.isLt).2.2.2 = accNew (F := Ideal) (qblk m c t) (kblk m c t) (vblk m c t) (pm m c t) (pa m c t) := by
  rw [outsAt0_C m c t h0 h1]
  dsimp only
  exact sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

theorem oC (c : Dev nD) (t : Fin cfg0.N) (h0 : ¬t.val % 8 = 0) (h1 : t.val % 8 = 7) :
    (outsAt0 m c t.val t.isLt).1 = k0_pay3 (F := Ideal) (accNew (F := Ideal) (qblk m c t) (kblk m c t) (vblk m c t) (pm m c t) (pa m c t)) (lNew (F := Ideal) (qblk m c t) (kblk m c t) (pm m c t) (pl m c t)) := by
  rw [outsAt0_C m c t h0 h1]
  dsimp only
  exact oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## The induction over the grid -/

variable (c : Dev nD) (hQ : IsReal (Qa m c)) (hK : IsReal (Ka m c)) (hV : IsReal (Va m c))
include hQ hK hV

/-- After point n the scratch buffers describe query block n / 8 after its first 1024·(n % 8) + 1024 keys. -/
theorem inv : ∀ (n : ℕ) (hn : n < cfg0.N),
    St (Qa m c) (Ka m c) (Va m c) (n / 8) (1024 * (n % 8) + 1024)
      (outsAt0 m c n hn).2.1 (outsAt0 m c n hn).2.2.1 (outsAt0 m c n hn).2.2.2 := by
  intro n
  induction n with
  | zero =>
    intro hn
    have h0 : (⟨0, hn⟩ : Fin cfg0.N).val % 8 = 0 := rfl
    have h1 : ¬(⟨0, hn⟩ : Fin cfg0.N).val % 8 = 7 := by show ¬(0 % 8 = 7); decide
    rw [show (outsAt0 m c 0 hn).2.1 = _ from mA m c ⟨0, hn⟩ h0 h1,
      show (outsAt0 m c 0 hn).2.2.1 = _ from lA m c ⟨0, hn⟩ h0 h1,
      show (outsAt0 m c 0 hn).2.2.2 = _ from aA m c ⟨0, hn⟩ h0 h1]
    exact step_first (fun r d => qblk_real m c hQ ⟨0, hn⟩ r d) (fun k d => kblk_real m c hK ⟨0, hn⟩ k d)
      (fun k d => vblk_real m c hV ⟨0, hn⟩ k d)
  | succ k ih =>
    intro hn
    have hN : k + 1 < 32 := lt_of_lt_of_eq hn hN32
    have ihk := ih (Nat.lt_of_succ_lt hn)
    by_cases h0 : (k + 1) % 8 = 0
    · have h1 : ¬(k + 1) % 8 = 7 := by omega
      rw [show (outsAt0 m c (k + 1) hn).2.1 = _ from mA m c ⟨k + 1, hn⟩ h0 h1,
        show (outsAt0 m c (k + 1) hn).2.2.1 = _ from lA m c ⟨k + 1, hn⟩ h0 h1,
        show (outsAt0 m c (k + 1) hn).2.2.2 = _ from aA m c ⟨k + 1, hn⟩ h0 h1]
      have e : 1024 * ((k + 1) % 8) + 1024 = 0 + 1024 := by omega
      rw [e]
      refine step_first (fun r d => qblk_real m c hQ ⟨k + 1, hn⟩ r d) (fun kk d => ?_) (fun kk d => ?_)
      · rw [kblk_real m c hK ⟨k + 1, hn⟩ kk d]
        have e' : 1024 * ((⟨k + 1, hn⟩ : Fin cfg0.N).val % 8) + kk.val = 0 + kk.val := by
          show 1024 * ((k + 1) % 8) + kk.val = 0 + kk.val; omega
        rw [e']
      · rw [vblk_real m c hV ⟨k + 1, hn⟩ kk d]
        have e' : 1024 * ((⟨k + 1, hn⟩ : Fin cfg0.N).val % 8) + kk.val = 0 + kk.val := by
          show 1024 * ((k + 1) % 8) + kk.val = 0 + kk.val; omega
        rw [e']
    · have e1 : (k + 1) / 8 = k / 8 := by omega
      have e2 : 1024 * (k % 8) + 1024 = 1024 * ((k + 1) % 8) := by omega
      have ih' : St (Qa m c) (Ka m c) (Va m c) ((k + 1) / 8) (1024 * ((k + 1) % 8))
          (pm m c ⟨k + 1, hn⟩) (pl m c ⟨k + 1, hn⟩) (pa m c ⟨k + 1, hn⟩) := by
        rw [e1, ← e2]; exact ihk
      have hstep := step (Q := Qa m c) (K := Ka m c) (V := Va m c)
        (fun r d => qblk_real m c hQ ⟨k + 1, hn⟩ r d) (fun kk d => kblk_real m c hK ⟨k + 1, hn⟩ kk d)
        (fun kk d => vblk_real m c hV ⟨k + 1, hn⟩ kk d) ih'
      by_cases h1 : (k + 1) % 8 = 7
      · rw [show (outsAt0 m c (k + 1) hn).2.1 = _ from mC m c ⟨k + 1, hn⟩ h0 h1,
          show (outsAt0 m c (k + 1) hn).2.2.1 = _ from lC m c ⟨k + 1, hn⟩ h0 h1,
          show (outsAt0 m c (k + 1) hn).2.2.2 = _ from aC m c ⟨k + 1, hn⟩ h0 h1]
        exact hstep
      · rw [show (outsAt0 m c (k + 1) hn).2.1 = _ from mB m c ⟨k + 1, hn⟩ h0 h1,
          show (outsAt0 m c (k + 1) hn).2.2.1 = _ from lB m c ⟨k + 1, hn⟩ h0 h1,
          show (outsAt0 m c (k + 1) hn).2.2.2 = _ from aB m c ⟨k + 1, hn⟩ h0 h1]
        exact hstep

/-- So every last-tile point stores attention's rows of its query block into the output's buffer. -/
theorem outOk : OutOk m c := by
  intro t h7 r d
  have hN : t.val < 32 := lt_of_lt_of_eq t.isLt hN32
  have h0 : ¬t.val % 8 = 0 := by omega
  have hst := inv m c hQ hK hV t.val t.isLt
  rw [show (outsAt0 m c t.val t.isLt).2.1 = _ from mC m c t h0 h7,
    show (outsAt0 m c t.val t.isLt).2.2.1 = _ from lC m c t h0 h7,
    show (outsAt0 m c t.val t.isLt).2.2.2 = _ from aC m c t h0 h7] at hst
  have e : 1024 * (t.val % 8) + 1024 = 8192 := by omega
  rw [e] at hst
  rw [show ((outsAt0 m c t.val t.isLt).1 : Vec Ideal S2048x128 .f32) = _ from oC m c t h0 h7]
  exact out_of_St (by omega) hst r d

/-- The result array after the run is attention of the three argument arrays. -/
theorem result_attn : ((dats m 0 c).arrAt 3 cfg0.N : S8192x128.Idx → EReal) = attn (Qa m c) (Ka m c) (Va m c) :=
  final_attn m c (outOk m c hQ hK hV)

end Cert.KernelIdeal.Inv
end
-- ==== Proof.lean ====
/-
  Flash attention against softmax attention, over the extended reals with finite inputs.

  The kernel streams the 8192 keys in eight tiles of 1024 per block of 2048 query rows, carrying per row a
  running maximum m, a weight sum l and a weighted sum acc of V's rows; a new tile with maximum-so-far m'
  rescales l and acc by exp(m − m') and adds the tile's exp(s − m') terms; after the last tile it stores
  acc / l. The reference computes s = Q Kᵀ, subtracts each row's maximum M, exponentiates, divides by the row
  sum and multiplies by V. With real data both are
      (Σ_k exp s(q,k) · V(k,d)) / (Σ_k exp s(q,k)),
  because after any number of tiles l = exp(−μ)·Σ exp s and acc = exp(−μ)·Σ exp s · V for some real μ (the
  first tile starts from m = −∞, where the rescaling factor is exp(−∞) = 0, and from l = acc = 0), and the
  common factor exp(−μ), like the reference's exp(−M), cancels in the quotient; the sum of exponentials is
  positive, so the quotient is a real division. Finiteness of the inputs is used: it makes every score real,
  which the cancellation and the distribution of the division over the sum need.

  The frames of the two kernel programs are the generated ones; the reference's frame is its generated run
  with the result dropped; the ideal pass rewrote nothing, so its ledger's statement is trivial.
-/
import proofs.«402719_j29540785062259_3_alg».proof.Defs
import proofs.«402719_j29540785062259_3_alg».proof.Proof.Gen.Kernel
import proofs.«402719_j29540785062259_3_alg».proof.Proof.Gen.Kernel.Skeleton
import proofs.«402719_j29540785062259_3_alg».proof.Proof.Gen.Kernel.Launch
import proofs.«402719_j29540785062259_3_alg».proof.Proof.Gen.Kernel.Points
import proofs.«402719_j29540785062259_3_alg».proof.Proof.Gen.Kernel.Frame
import proofs.«402719_j29540785062259_3_alg».proof.Proof.Gen.KernelIdeal
import proofs.«402719_j29540785062259_3_alg».proof.Proof.Gen.KernelIdeal.Skeleton
import proofs.«402719_j29540785062259_3_alg».proof.Proof.Gen.KernelIdeal.Launch
import proofs.«402719_j29540785062259_3_alg».proof.Proof.Gen.KernelIdeal.Points
import proofs.«402719_j29540785062259_3_alg».proof.Proof.Gen.KernelIdeal.Frame
import proofs.«402719_j29540785062259_3_alg».proof.Proof.Gen.ReferenceIdeal
import proofs.«402719_j29540785062259_3_alg».proof.Proof.Gen.Pre_finite_inputs
import proofs.«402719_j29540785062259_3_alg».proof.Proof.Gen.KernelIdeal.Value
import proofs.«402719_j29540785062259_3_alg».proof.Proof.Gen.ReferenceIdeal.Run
import proofs.«402719_j29540785062259_3_alg».proof.Proof.Gen.ReferenceIdeal.Read
import proofs.«402719_j29540785062259_3_alg».proof.Proof.AttnSpec
import proofs.«402719_j29540785062259_3_alg».proof.Proof.AttnFinite
import proofs.«402719_j29540785062259_3_alg».proof.Proof.AttnRef
import proofs.«402719_j29540785062259_3_alg».proof.Proof.AttnBlocks
import proofs.«402719_j29540785062259_3_alg».proof.Proof.AttnInv
import Idealize.ShloMosaic.Adequacy
import Idealize.ShloMosaic.Init

noncomputable section

namespace Cert.Proof

open Idealize.ShloMosaic Idealize.ShloMosaic.TcCoe Idealize.SL.Sem Cert.Attn

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten by the ideal pass. -/
theorem preserves : Cert.preserves_Kernel_KernelIdeal := trivial

/-- Both programs end with the result array at attention of the (real) argument arrays. -/
theorem algebraic : Cert.algebraic_KernelIdeal_ReferenceIdeal := by
  intro m ρ m' ρ' hpre hagree
  have hreal : ∀ c : Dev Cert.KernelIdeal.nD,
      IsReal (Cert.KernelIdeal.Blocks.Qa m c) ∧ IsReal (Cert.KernelIdeal.Blocks.Ka m c) ∧ IsReal (Cert.KernelIdeal.Blocks.Va m c) :=
    fun c => real_of_pre _ _ _ (hpre c)
  refine ⟨fun c => attn (Cert.KernelIdeal.Blocks.Qa m c) (Cert.KernelIdeal.Blocks.Ka m c) (Cert.KernelIdeal.Blocks.Va m c), ?_, ?_⟩
  · exact (θ_run Cert.KernelIdeal.defs _ _).mono
      (fun r h c => ⟨(h c).1.trans (Cert.KernelIdeal.Inv.result_attn m c (hreal c).1 (hreal c).2.1 (hreal c).2.2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v12_eq _ _ _).trans
      (ref_is_attn _ _ _ (hreal c).1 (hreal c).2.1 (hreal c).2.2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
